-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128x128 : Shape := ⟨3, ![4096, 128, 128]⟩
abbrev S4096x128 : Shape := ⟨2, ![4096, 128]⟩
abbrev S_ : Shape := ⟨0, ![]⟩

class Facts : Prop where
  bcast_S_S4096x128x128 : S_.BroadcastsInDim S4096x128x128 (![] : Fin 0 → Fin S4096x128x128.rank)
  reducesTo_S4096x128x128_S_d0_1_2 : S4096x128x128.ReducesTo [0, 1, 2] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S4096x128x128 .f32) (main_arg1 : IVec S4096x128 32) : IVec S_ 1 :=
  let main_v0 : FVec F S4096x128x128 .f32 := Host.absf main_arg0
  let main_cst : FVec F S_ .f32 := constant S_ .f32 0x7F800000#32
  let main_v1 : FVec F S4096x128x128 .f32 := broadcastInDim S4096x128x128 ![] bcast_S_S4096x128x128 main_cst
  let main_v2 : IVec S4096x128x128 1 := cmpf .olt main_v0 main_v1
  let main_c : IVec S_ 1 := constantI S_ 1 1#1
  let main_v3 : IVec S_ 1 := (fun x v => Host.reduce IntOp.andi x v reducesTo_S4096x128x128_S_d0_1_2 h_S_) main_v2 main_c
  let main_c_0 : IVec S_ 32 := constantI S_ 32 0#32
  let main_v4 : IVec S4096x128 32 := broadcastInDim S4096x128 ![] bcast_S_S4096x128 main_c_0
  let main_v5 : IVec S4096x128 1 := cmpi .sge main_arg1 main_v4
  let main_c_1 : IVec S_ 32 := constantI S_ 32 128#32
  let main_v6 : IVec S4096x128 32 := broadcastInDim S4096x128 ![] bcast_S_S4096x128 main_c_1
  let main_v7 : IVec S4096x128 1 := cmpi .slt main_arg1 main_v6
  let main_v8 : IVec S4096x128 1 := andi main_v5 main_v7
  let main_c_2 : IVec S_ 1 := constantI S_ 1 1#1
  let main_v9 : IVec S_ 1 := (fun x v => Host.reduce IntOp.andi x v reducesTo_S4096x128_S_d0_1 h_S_) main_v8 main_c_2
  let main_v10 : IVec S_ 1 := andi main_v3 main_v9
  main_v10
-- ==== Kernel.lean ====
abbrev S4096x128x128 : Shape := ⟨3, ![4096, 128, 128]⟩
abbrev S4096x128 : Shape := ⟨2, ![4096, 128]⟩
abbrev S4096x128x1 : Shape := ⟨3, ![4096, 128, 1]⟩
abbrev S2x8x128 : Shape := ⟨3, ![2, 8, 128]⟩
abbrev S256x128x128 : Shape := ⟨3, ![256, 128, 128]⟩
abbrev S256x128x1 : Shape := ⟨3, ![256, 128, 1]⟩
abbrev S1x8x128 : Shape := ⟨3, ![1, 8, 128]⟩
abbrev S256x128 : Shape := ⟨2, ![256, 128]⟩
abbrev S1x1x128 : Shape := ⟨3, ![1, 1, 128]⟩
abbrev S1x256x128 : Shape := ⟨3, ![1, 256, 128]⟩
abbrev S1 : Shape := ⟨1, ![1]⟩
abbrev S1x1x1 : Shape := ⟨3, ![1, 1, 1]⟩
abbrev S8x128 : Shape := ⟨2, ![8, 128]⟩
abbrev S_ : Shape := ⟨0, ![]⟩

abbrev nBuf : Space → Nat
  | .hbm => 15
  | .vmem => 7
  | .smem => 0
  | _ => 0

abbrev bufTy : (tb : Table) → Fin (tcTables nBuf tb) → BufTy
  | .hbm, ⟨0, _⟩ => ⟨S4096x128x128, .f32⟩
  | .hbm, ⟨1, _⟩ => ⟨S4096x128, .i32⟩
  | .hbm, ⟨2, _⟩ => ⟨S4096x128x1, .i32⟩
  | .hbm, ⟨3, _⟩ => ⟨S2x8x128, .f32⟩
  | .hbm, ⟨4, _⟩ => ⟨S1x1x1, .f32⟩
  | .hbm, ⟨5, _⟩ => ⟨S_, .f32⟩
  | .hbm, ⟨6, _⟩ => ⟨S1x1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S256x128x128, .f32⟩
  | .local _ .vmem, ⟨1, _⟩ => ⟨S256x128x128, .f32⟩
  | .local _ .vmem, ⟨2, _⟩ => ⟨S256x128x1, .i32⟩
  | .local _ .vmem, ⟨3, _⟩ => ⟨S256x128x1, .i32⟩
  | .local _ .vmem, ⟨4, _⟩ => ⟨S1x8x128, .f32⟩
  | .local _ .vmem, ⟨5, _⟩ => ⟨S1x8x128, .f32⟩
  | .local _ .vmem, ⟨6, _⟩ => ⟨S256x128, .f32⟩
  | _, _ => ⟨S4096x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S4096x128_S4096x128x1_0_1 : S4096x128.BroadcastsInDim S4096x128x1 (![0, 1] : Fin 2 → Fin S4096x128x1.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x128x128_S256x128x128_0_0_0 : ∀ a, (![0, 0, 0] : Fin 3 → Nat) a + S256x128x128.size a ≤ S256x128x128.size a
  h_S256x128x128 : 0 < S256x128x128.numel
  inb_S256x128x1_S256x128x1_0_0_0 : ∀ a, (![0, 0, 0] : Fin 3 → Nat) a + S256x128x1.size a ≤ S256x128x1.size a
  h_S256x128x1 : 0 < S256x128x1.numel
  shapeCasts_S256x128x1_S256x128 : S256x128x1.ShapeCasts S256x128
  iota_S1x1x128_d2_w32 : S1x1x128.Iotas .tc 32 [2]
  shapeCasts_S256x128_S256x128x1 : S256x128.ShapeCasts S256x128x1
  broadcasts_S1x1x128_S256x128x128 : S1x1x128.Broadcasts S256x128x128
  broadcasts_S256x128x1_S256x128x128 : S256x128x1.Broadcasts S256x128x128
  natLt_1_32 : 1 < 32
  reduces_S256x128x128_S256x128 : S256x128x128.Reduces [2] S256x128
  shapeCasts_S256x128_S1x256x128 : S256x128.ShapeCasts S1x256x128
  reduces_S1x256x128_S1 : S1x256x128.Reduces [1, 2] S1
  shapeCasts_S1_S1x1x1 : S1.ShapeCasts S1x1x1
  inpos_S1x1x1_p0_0_0 : ∀ a, (![0, 0, 0] : Fin 3 → Nat) a < S1x1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128x128.size a ≤ S4096x128x128.size a
  hwx0_0 : ∀ i : grid0.Coords, EltTy.bits .f32 = 32 ∨ (Rect.block (s := S4096x128x128) S256x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128x1.size a ≤ S4096x128x1.size a
  hwx0_1 : ∀ i : grid0.Coords, EltTy.bits .i32 = 32 ∨ (Rect.block (s := S4096x128x1) S256x128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg0) S256x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x128x128 : Shape := ⟨3, ![4096, 128, 128]⟩
abbrev S4096x128 : Shape := ⟨2, ![4096, 128]⟩
abbrev S4096x128x1 : Shape := ⟨3, ![4096, 128, 1]⟩
abbrev S_ : Shape := ⟨0, ![]⟩
abbrev S4096x128x1x1 : Shape := ⟨4, ![4096, 128, 1, 1]⟩
abbrev S1 : Shape := ⟨1, ![1]⟩
abbrev S1x1x1x1 : Shape := ⟨4, ![1, 1, 1, 1]⟩
abbrev S128 : Shape := ⟨1, ![128]⟩
abbrev S1x1x128 : Shape := ⟨3, ![1, 1, 128]⟩

abbrev nBuf : Space → Nat
  | .hbm => 47
  | .vmem => 0
  | .smem => 0
  | _ => 0

abbrev bufTy : (tb : Table) → Fin (tcTables nBuf tb) → BufTy
  | .hbm, ⟨0, _⟩ => ⟨S4096x128x128, .f32⟩
  | .hbm, ⟨1, _⟩ => ⟨S4096x128, .i32⟩
  | .hbm, ⟨2, _⟩ => ⟨S4096x128x1, .i32⟩
  | .hbm, ⟨3, _⟩ => ⟨S_, .i32⟩
  | .hbm, ⟨4, _⟩ => ⟨S4096x128x1, .i32⟩
  | .hbm, ⟨5, _⟩ => ⟨S4096x128x1, .i1⟩
  | .hbm, ⟨6, _⟩ => ⟨S_, .i32⟩
  | .hbm, ⟨7, _⟩ => ⟨S4096x128x1, .i32⟩
  | .hbm, ⟨8, _⟩ => ⟨S4096x128x1, .i32⟩
  | .hbm, ⟨9, _⟩ => ⟨S4096x128x1, .i32⟩
  | .hbm, ⟨10, _⟩ => ⟨S4096x128x1x1, .i32⟩
  | .hbm, ⟨11, _⟩ => ⟨S1, .i32⟩
  | .hbm, ⟨12, _⟩ => ⟨S_, .i32⟩
  | .hbm, ⟨13, _⟩ => ⟨S4096x128x1x1, .i32⟩
  | .hbm, ⟨14, _⟩ => ⟨S4096x128x1x1, .i1⟩
  | .hbm, ⟨15, _⟩ => ⟨S1x1x1x1, .i32⟩
  | .hbm, ⟨16, _⟩ => ⟨S4096x128x1x1, .i32⟩
  | .hbm, ⟨17, _⟩ => ⟨S4096x128x1x1, .i1⟩
  | .hbm, ⟨18, _⟩ => ⟨S4096x128x1x1, .i1⟩
  | .hbm, ⟨19, _⟩ => ⟨S_, .i1⟩
  | .hbm, ⟨20, _⟩ => ⟨S4096x128x1, .i1⟩
  | .hbm, ⟨21, _⟩ => ⟨S4096x128x1, .f32⟩
  | .hbm, ⟨22, _⟩ => ⟨S_, .f32⟩
  | .hbm, ⟨23, _⟩ => ⟨S4096x128x1, .f32⟩
  | .hbm, ⟨24, _⟩ => ⟨S4096x128x1, .f32⟩
  | .hbm, ⟨25, _⟩ => ⟨S4096x128x128, .f32⟩
  | .hbm, ⟨26, _⟩ => ⟨S4096x128x128, .f32⟩
  | .hbm, ⟨27, _⟩ => ⟨S_, .f32⟩
  | .hbm, ⟨28, _⟩ => ⟨S4096x128x128, .f32⟩
  | .hbm, ⟨29, _⟩ => ⟨S4096x128x128, .f32⟩
  | .hbm, ⟨30, _⟩ => ⟨S_, .f32⟩
  | .hbm, ⟨31, _⟩ => ⟨S4096x128x128, .f32⟩
  | .hbm, ⟨32, _⟩ => ⟨S4096x128x128, .f32⟩
  | .hbm, ⟨33, _⟩ => ⟨S128, .i32⟩
  | .hbm, ⟨34, _⟩ => ⟨S1x1x128, .i32⟩
  | .hbm, ⟨35, _⟩ => ⟨S4096x128x1, .i32⟩
  | .hbm, ⟨36, _⟩ => ⟨S4096x128x128, .i32⟩
  | .hbm, ⟨37, _⟩ => ⟨S4096x128x128, .i32⟩
  | .hbm, ⟨38, _⟩ => ⟨S4096x128x128, .i1⟩
  | .hbm, ⟨39, _⟩ => ⟨S_, .f32⟩
  | .hbm, ⟨40, _⟩ => ⟨S_, .f32⟩
  | .hbm, ⟨41, _⟩ => ⟨S4096x128x128, .f32⟩
  | .hbm, ⟨42, _⟩ => ⟨S4096x128x128, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S4096x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_cst_3 : Ref sig .tc := ⟨.hbm, 45, rfl⟩
abbrev main_v16 : Ref sig .tc := ⟨.hbm, 46, rfl⟩

abbrev nD : Nat := 1
abbrev τ : Topo := Topo.v7x

variable {F : FTy → Type} [FloatOps F]

class Facts₀ : Prop where
  bcast_S4096x128_S4096x128x1_0_1 : S4096x128.BroadcastsInDim S4096x128x1 (![0, 1] : Fin 2 → Fin S4096x128x1.rank)
  bcast_S_S4096x128x1 : S_.BroadcastsInDim S4096x128x1 (![] : Fin 0 → Fin S4096x128x1.rank)
  shapeCasts_S4096x128x1_S4096x128x1x1 : S4096x128x1.ShapeCasts S4096x128x1x1
  bcast_S_S4096x128x1x1 : S_.BroadcastsInDim S4096x128x1x1 (![] : Fin 0 → Fin S4096x128x1x1.rank)
  bcast_S1_S1x1x1x1_3 : S1.BroadcastsInDim S1x1x1x1 (![3] : Fin 1 → Fin S1x1x1x1.rank)
  bcast_S1x1x1x1_S4096x128x1x1_0_1_2_3 : S1x1x1x1.BroadcastsInDim S4096x128x1x1 (![0, 1, 2, 3] : Fin 4 → Fin S4096x128x1x1.rank)
  reducesTo_S4096x128x1x1_S4096x128x1_d3 : S4096x128x1x1.ReducesTo [3] S4096x128x1
  h_S_ : 0 < S_.numel
  bcast_S4096x128x1_S4096x128x128_0_1_2 : S4096x128x1.BroadcastsInDim S4096x128x128 (![0, 1, 2] : Fin 3 → Fin S4096x128x128.rank)
  bcast_S_S4096x128x128 : S_.BroadcastsInDim S4096x128x128 (![] : Fin 0 → Fin S4096x128x128.rank)
  bcast_S128_S1x1x128_2 : S128.BroadcastsInDim S1x1x128 (![2] : Fin 1 → Fin S1x1x128.rank)
  bcast_S1x1x128_S4096x128x128_0_1_2 : S1x1x128.BroadcastsInDim S4096x128x128 (![0, 1, 2] : Fin 3 → Fin S4096x128x128.rank)
  reducesTo_S4096x128x128_S_d0_1_2 : S4096x128x128.ReducesTo [0, 1, 2] S_
  gather_S4096x128x128_S4096x128x1x1_S4096x128x1_n_2_01_01_2_3_111_wf : GatherDims.WF S4096x128x128 S4096x128x1x1 S4096x128x1 [] [2] [0, 1] [2] [0, 1] 3 ![1, 1, 1]

variable [Facts₀]

def gather_S4096x128x128_S4096x128x1x1_S4096x128x1_n_2_01_01_2_3_111 : GatherDims S4096x128x128 S4096x128x1x1 S4096x128x1 where
  offsetDims := []
  collapsedSliceDims := [2]
  operandBatchingDims := [0, 1]
  startIndicesBatchingDims := [0, 1]
  startIndexMap := [2]
  indexVectorDim := 3
  sliceSizes := ![1, 1, 1]
  wf := gather_S4096x128x128_S4096x128x1x1_S4096x128x1_n_2_01_01_2_3_111_wf

class Facts : Prop extends Facts₀ where

variable [Facts]
-- ==== Proof.Pieces.lean ====
/-
  What the kernel body leaves in its accumulator and in its output tile at one grid point, as values: at a
  half's first point the accumulator is reset to zeros and then gains the block's row sums; at every other
  point it gains them over what the point before left; the output tile is filled, at every point, with the
  total of the accumulator as it stands after the update.
-/
import proofs.«414346_j74491912782376_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Away from a half's first point the accumulator gains the block's row sums over what it held. -/
theorem sout_B (c : Dev nD) (i : grid0.Coords) (a2 : Memref sig .tc .vmem S256x128x128 .f32) (h2 : a2.IsWhole)
    (a3 : Memref sig .tc .vmem S256x128x1 .i32) (h3 : a3.IsWhole) (a4 : Memref sig .tc .vmem S1x8x128 .f32) (h4 : a4.IsWhole)
    (a5 : Memref sig .tc .vmem S256x128 .f32) (h5 : a5.IsWhole) (hc : ¬cond0_0 i)
    (x0 : Vec F S256x128x128 .f32) (x1 : Vec F S256x128x1 .i32) (xs0 : Vec F S256x128 .f32) :
    sout0_B_0 c i a2 h2 a3 h3 a4 h4 a5 h5 hc x0 x1 xs0 = k0_pay3 x0 x1 xs0 := by
  unfold sout0_B_0
  rw [View.read_writes_eq_canon _ _ _ (scover0_B_0 c i a2 h2 a3 h3 a4 h4 a5 h5 hc x0 x1 xs0)]
  unfold kernelRun0_B
  dsimp only
  sl_unfold_words
  rw [View.canon_unit_zero hz2]
  simp only [View.readAt_eq_ld, h2.read_unread, h3.read_unread, h5.read_unread, View.ld_unit_zero (S := S256x128x128) hz3,
    View.ld_unit_zero (S := S256x128x1) hz3, View.ld_unit_zero (S := S256x128) hz2]

/-- … and the output tile holds the total of the accumulator so updated. -/
theorem out_B (c : Dev nD) (i : grid0.Coords) (a2 : Memref sig .tc .vmem S256x128x128 .f32) (h2 : a2.IsWhole)
    (a3 : Memref sig .tc .vmem S256x128x1 .i32) (h3 : a3.IsWhole) (a4 : Memref sig .tc .vmem S1x8x128 .f32) (h4 : a4.IsWhole)
    (a5 : Memref sig .tc .vmem S256x128 .f32) (h5 : a5.IsWhole) (hc : ¬cond0_0 i)
    (x0 : Vec F S256x128x128 .f32) (x1 : Vec F S256x128x1 .i32) (xs0 : Vec F S256x128 .f32) :
    out0_B_2 c i a2 h2 a3 h3 a4 h4 a5 h5 hc x0 x1 xs0 = k0_pay1 (k0_pay4 (k0_pay3 x0 x1 xs0)) := by
  unfold out0_B_2
  rw [View.read_writes_eq_canon _ _ _ (cover0_B_2 c i a2 h2 a3 h3 a4 h4 a5 h5 hc x0 x1 xs0)]
  unfold kernelRun0_B
  dsimp only
  sl_unfold_words
  rw [View.canon_unit_zero hz3]
  simp only [View.readAt_eq_ld, h2.read_unread, h3.read_unread, h5.read_unread, View.ld_unit_zero (S := S256x128x128) hz3,
    View.ld_unit_zero (S := S256x128x1) hz3, View.ld_unit_zero (S := S256x128) hz2, View.readCov_unit_zero (S := S256x128) _ hz2]

/-- At a half's first point the accumulator is reset, then gains the block's row sums. -/
theorem sout_A (c : Dev nD) (i : grid0.Coords) (a2 : Memref sig .tc .vmem S256x128x128 .f32) (h2 : a2.IsWhole)
    (a3 : Memref sig .tc .vmem S256x128x1 .i32) (h3 : a3.IsWhole) (a4 : Memref sig .tc .vmem S1x8x128 .f32) (h4 : a4.IsWhole)
    (a5 : Memref sig .tc .vmem S256x128 .f32) (h5 : a5.IsWhole) (hc : cond0_0 i)
    (x0 : Vec F S256x128x128 .f32) (x1 : Vec F S256x128x1 .i32) :
    sout0_A_0 c i a2 h2 a3 h3 a4 h4 a5 h5 hc x0 x1 = k0_pay3 x0 x1 (k0_pay2 (F := F)) := by
  unfold sout0_A_0
  rw [View.read_writes_eq_canon _ _ _ (scover0_A_0 c i a2 h2 a3 h3 a4 h4 a5 h5 hc x0 x1)]
  unfold kernelRun0_A
  dsimp only
  sl_unfold_words
  rw [View.canon_cons_unit_zero (S := S256x128) hz2, View.readCov_unit_zero (S := S256x128) _ hz2]
  simp only [View.readAt_eq_ld, h2.read_unread, h3.read_unread, View.ld_unit_zero (S := S256x128x128) hz3,
    View.ld_unit_zero (S := S256x128x1) hz3, View.ld_unit_zero (S := S256x128) hz2]

/-- … and the output tile holds the total of the accumulator so updated. -/
theorem out_A (c : Dev nD) (i : grid0.Coords) (a2 : Memref sig .tc .vmem S256x128x128 .f32) (h2 : a2.IsWhole)
    (a3 : Memref sig .tc .vmem S256x128x1 .i32) (h3 : a3.IsWhole) (a4 : Memref sig .tc .vmem S1x8x128 .f32) (h4 : a4.IsWhole)
    (a5 : Memref sig .tc .vmem S256x128 .f32) (h5 : a5.IsWhole) (hc : cond0_0 i)
    (x0 : Vec F S256x128x128 .f32) (x1 : Vec F S256x128x1 .i32) :
    out0_A_2 c i a2 h2 a3 h3 a4 h4 a5 h5 hc x0 x1 = k0_pay1 (k0_pay4 (k0_pay3 x0 x1 (k0_pay2 (F := F)))) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz3]
  simp only [View.readAt_eq_ld, h2.read_unread, h3.read_unread, View.ld_unit_zero (S := S256x128x128) hz3,
    View.ld_unit_zero (S := S256x128x1) hz3, View.ld_unit_zero (S := S256x128) hz2, View.readCov_unit_zero (S := S256x128) _ hz2, View.readCov_cons_toLoadRect]

end Cert.KernelIdeal.Acc

end
-- ==== Proof.Spec.lean ====
/-
  The mathematics of the margin ranking loss over scores `x : [4096, 128, 128]` and positive positions
  `τ v c < 128`, over the reals: the hinge term of a row at a position, the loss (the mean, over the
  positions other than the positive one, of the hinge terms) and the kernel's arrangement of the same
  number (the hinge terms summed over ALL positions, two halves of eight row blocks of 256 rows each, less
  one half per row for the positive position's own term, which is exactly the margin).
-/
import Idealize.ShloMosaic.PureOps.Ideal
import Idealize.ShloMosaic.Lib.ValueIdx

noncomputable section

open scoped BigOperators

namespace Cert.Margin

open Idealize.ShloMosaic Idealize.ShloMosaic.ValueIdx

/-- The scores' shape and the positions' shape. -/
abbrev SX : Shape := ⟨3, ![4096, 128, 128]⟩
abbrev ST : Shape := ⟨2, ![4096, 128]⟩

/-- Row `r` of row block `b` (sixteen blocks of 256 rows). -/
abbrev rowOf (b : Fin 16) (r : Fin 256) : Fin 4096 := ⟨256 * b.val + r.val, by have := b.isLt; have := r.isLt; omega⟩

/-- Block `j` of half `i` (two halves of eight blocks). -/
abbrev blkOf (i : Fin 2) (j : Fin 8) : Fin 16 := ⟨8 * i.val + j.val, by have := i.isLt; have := j.isLt; omega⟩

/-- The hinge term of row `(v, c)` at position `t`: `max (x[v,c,t] - x[v,c,τ] + 1/2) 0`. -/
def hingeR (xr : SX.Idx → ℝ) (τ : Fin 4096 → Fin 128 → Fin 128) (v : Fin 4096) (c : Fin 128) (t : Fin 128) : ℝ :=
  max (xr (ix3 v c t) - xr (ix3 v c (τ v c)) + 1 / 2) 0

/-- A row's hinge terms summed over every position, the positive one included. -/
def rowSumR (xr : SX.Idx → ℝ) (τ : Fin 4096 → Fin 128 → Fin 128) (v : Fin 4096) (c : Fin 128) : ℝ :=
  ∑ t : Fin 128, hingeR xr τ v c t

/-- The loss: the hinge terms away from the positive position, summed, over their number `4096 · 128 · 127`. -/
def lossR (xr : SX.Idx → ℝ) (τ : Fin 4096 → Fin 128 → Fin 128) : ℝ :=
  (∑ v : Fin 4096, ∑ c : Fin 128, ∑ t : Fin 128, if t = τ v c then 0 else hingeR xr τ v c t) / 66584576

/-- One half's total as the kernel accumulates it: over the 256 × 128 accumulator entries, the eight blocks' row sums. -/
def halfR (xr : SX.Idx → ℝ) (τ : Fin 4096 → Fin 128 → Fin 128) (i : Fin 2) : ℝ :=
  ∑ r : Fin 256, ∑ c : Fin 128, ∑ j : Fin 8, rowSumR xr τ (rowOf (blkOf i j) r) c

/-- The kernel's number: the two halves, less a half per row, over the same count. -/
def kernR (xr : SX.Idx → ℝ) (τ : Fin 4096 → Fin 128 → Fin 128) : ℝ :=
  (halfR xr τ 0 + halfR xr τ 1 - 524288 * (1 / 2)) / 66584576

/-- A finite sum of reals, read in the extended reals, is the sum of the terms read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Margin

end
-- ==== Proof.Payload.lean ====
/-
  The kernel body's arithmetic read at an index, over the extended reals, for real scores and positions
  below 128: the one-hot product summed along the last axis is the score at the positive position; the
  accumulator gains the row's hinge terms summed over every position; the output tile holds the
  accumulator's total at every entry.
-/
import proofs.«414346_j74491912782376_3_alg».proof.Proof.Gen.KernelIdeal.Skeleton
import proofs.«414346_j74491912782376_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Idealize.ShloMosaic Idealize.ShloMosaic.ValueIdx Cert.KernelIdeal Cert.KernelIdeal.Gen

variable {α : Type}

/-! ## Layout operations of this body read at an index -/

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A `[1, 1, c]` array broadcast to `[a, b, c]` reads, at `(p, q, t)`, the operand's one row at `t`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (t : Fin c) :
    broadcastTo ⟨3, ![a, b, c]⟩ v h (ix3 p q t) = v (ix3 (0 : Fin 1) (0 : Fin 1) t) := by
  refine broadcastTo_apply v h (ix3 p q t) (ix3 (0 : Fin 1) (0 : Fin 1) t) fun ax => ?_
  match ax with
  | ⟨0, _⟩ => rfl
  | ⟨1, _⟩ => rfl
  | ⟨2, _⟩ =>
    show t.val = if c = 1 then 0 else t.val
    split
    · have := t.isLt; omega
    · rfl

/-- An `[a, b, 1]` array broadcast to `[a, b, c]` reads, at `(p, q, t)`, the operand's column entry at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (t : Fin c) :
    broadcastTo ⟨3, ![a, b, c]⟩ v h (ix3 p q t) = v (ix3 p q (0 : Fin 1)) := by
  refine broadcastTo_apply v h (ix3 p q t) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An integer comparison at an index compares the elements. -/
theorem cmpi_apply {s : Shape} {w : ℕ} (p : CmpIPredicate) (x y : IVec s w) (i : s.Idx) :
    cmpi p x y i = IntOp.cmpi p (x i) (y i) := rfl

/-! ## The sums of this body -/

/-- The source index over `(p, q)` with `t` put on the last axis is `(p, q, t)`. -/
theorem lift_ix2_last {a b c : ℕ} (h : (⟨3, ![a, b, c]⟩ : Shape).Reduces [2] ⟨2, ![a, b]⟩) (p : Fin a) (q : Fin b)
    (t : Fin c) : h.lift (ix2 p q) t = ix3 p q t := by
  funext d
  match d with
  | ⟨0, _⟩ => exact Fin.ext rfl
  | ⟨1, _⟩ => exact Fin.ext rfl
  | ⟨2, _⟩ => exact Fin.ext rfl

/-- A sum along the last axis of a rank-3 vector, read at `(p, q)`: the sum over `t` of the entries `(p, q, t)`. -/
theorem laneSum_apply {a b c : ℕ} (src : FVec Ideal ⟨3, ![a, b, c]⟩ .f32) (acc : BitVec FTy.f32.bits)
    (h : (⟨3, ![a, b, c]⟩ : Shape).Reduces [2] ⟨2, ![a, b]⟩) (hφ : FKind.Formats .f32)
    (hacc : acc = FKind.add.neutral .f32 hφ) (p : Fin a) (q : Fin b) :
    multiReduction (F := Ideal) .add [2] ⟨2, ![a, b]⟩ src acc h hφ hacc (ix2 p q) = ∑ t : Fin c, src (ix3 p q t) := by
  refine (Ideal.multiReduction_add_single src acc h hφ hacc (ix2 p q)).trans ?_
  exact Finset.sum_congr rfl fun t _ => congrArg src (lift_ix2_last h p q t)

/-- A rank-3 index set with a leading unit axis is the product of its other two coordinate ranges … -/
def idxEquiv1ab {n1 n2 : ℕ} : (⟨3, ![1, n1, n2]⟩ : Shape).Idx ≃ Fin n1 × Fin n2 where
  toFun i := (i 1, i 2)
  invFun p := ix3 (0 : Fin 1) p.1 p.2
  left_inv i := by
    funext d
    match d with
    | ⟨0, _⟩ =>
      have h0 : (i 0).val < 1 := (i 0).isLt
      exact Fin.ext (by show 0 = (i 0).val; omega)
    | ⟨1, _⟩ => rfl
    | ⟨2, _⟩ => rfl
  right_inv _ := rfl

/-- … so a sum over it is the double sum over those coordinates. -/
theorem sum_idx1ab {M : Type*} [AddCommMonoid M] {n1 n2 : ℕ} (f : (⟨3, ![1, n1, n2]⟩ : Shape).Idx → M) :
    ∑ i, f i = ∑ a : Fin n1, ∑ b : Fin n2, f (ix3 (0 : Fin 1) a b) := by
  rw [← Equiv.sum_comp (idxEquiv1ab (n1 := n1) (n2 := n2)).symm f, Fintype.sum_prod_type]
  rfl

/-! ## The one-hot factor -/

/-- Two positions below 128 with the same 32-bit word are equal. -/
theorem eq_of_ofNat32_eq {m n : ℕ} (hm : m < 128) (hn : n < 128) (h : BitVec.ofNat 32 m = BitVec.ofNat 32 n) :
    m = n := by
  have e := congrArg BitVec.toNat h
  rw [BitVec.toNat_ofNat, BitVec.toNat_ofNat, Nat.mod_eq_of_lt (by omega), Nat.mod_eq_of_lt (by omega)] at e
  exact e

/-- The comparison of two positions' words, widened and converted: `1` at the same position and `0` elsewhere. -/
theorem onehot_eq (t τ : Fin 128) :
    (FloatOps.sitofp (F := Ideal) .f32
        ((IntOp.cmpi .eq (BitVec.ofNat 32 t.val) (BitVec.ofNat 32 τ.val)).setWidth 32) : EReal)
      = (((if t = τ then 1 else 0 : ℝ)) : EReal) := by
  show ((((IntOp.cmpi .eq (BitVec.ofNat 32 t.val) (BitVec.ofNat 32 τ.val)).setWidth 32).toInt : ℝ) : EReal) = _
  by_cases h : t = τ
  · subst h
    have e : IntOp.cmpi .eq (BitVec.ofNat 32 t.val) (BitVec.ofNat 32 t.val) = 1#1 := by simp [IntOp.cmpi]
    rw [e, if_pos rfl]
    have e1 : ((1#1 : BitVec 1).setWidth 32).toInt = 1 := by decide
    rw [e1]; norm_num
  · have hne : BitVec.ofNat 32 t.val ≠ BitVec.ofNat 32 τ.val := fun he =>
      h (Fin.ext (eq_of_ofNat32_eq t.isLt τ.isLt he))
    have e : IntOp.cmpi .eq (BitVec.ofNat 32 t.val) (BitVec.ofNat 32 τ.val) = 0#1 := by
      show BitVec.ofBool (BitVec.ofNat 32 t.val == BitVec.ofNat 32 τ.val) = 0#1
      rw [beq_eq_false_iff_ne.mpr hne]; rfl
    rw [e, if_neg h]
    have e0 : ((0#1 : BitVec 1).setWidth 32).toInt = 0 := by decide
    rw [e0]; norm_num

/-- A sum against the one-hot factor picks the term at the position. -/
theorem sum_mul_onehot (f : Fin 128 → ℝ) (τ : Fin 128) : ∑ t : Fin 128, f t * (if t = τ then 1 else 0) = f τ := by
  simp [mul_ite, Finset.sum_ite_eq']

/-! ## The constants -/

/-- The word `0x3F000000` is one half. -/
theorem ofBits_half_f32 : Ideal.ofBits .f32 0x3F000000#32 = ((1 / 2 : ℝ) : EReal) := by
  simp [Ideal.ofBits, Ideal.ieee]
  rw [← EReal.coe_mul]
  exact congrArg Real.toEReal (by norm_num)

/-- The coercion of reals into the extended reals keeps maxima. -/
theorem coe_max (x y : ℝ) : ((max x y : ℝ) : EReal) = max (x : EReal) (y : EReal) :=
  EReal.coe_strictMono.monotone.map_max

/-- The zero word is the real zero. -/
theorem ofBits_zero_coe : Ideal.ofBits .f32 0x00000000#32 = ((0 : ℝ) : EReal) := Ideal.ofBits_zero_f32

/-- A shape cast of a splat reads the splat's value. -/
theorem shapeCast_broadcast_apply {s t : Shape} (x : α) (h : s.ShapeCasts t) (i : t.Idx) :
    shapeCast t (broadcast s x) h i = x := rfl

/-- An entry extracted from a shape cast of a vector that holds one value everywhere is that value. -/
theorem extractAt_shapeCast_of_const {s t : Shape} (v : s.Idx → α) (h : s.ShapeCasts t) (pos : Fin t.rank → ℕ)
    (hp : ∀ a, pos a < t.size a) (y : α) (hv : ∀ j, v j = y) : extractAt pos (shapeCast t v h) hp = y := hv _

/-- The lane sum at this body's shapes. -/
theorem laneSum_apply' (src : FVec Ideal S256x128x128 .f32) (acc : BitVec FTy.f32.bits) (hφ : FKind.Formats .f32)
    (hacc : acc = FKind.add.neutral .f32 hφ) (p : Fin 256) (q : Fin 128) :
    multiReduction (F := Ideal) .add [2] S256x128 src acc reduces_S256x128x128_S256x128 hφ hacc (ix2 p q)
      = ∑ t : Fin 128, src (ix3 p q t) :=
  laneSum_apply src acc reduces_S256x128x128_S256x128 hφ hacc p q

/-! ## The three payloads -/

/-- The reset stores zeros. -/
theorem pay2_apply (r : Fin 256) (c : Fin 128) : k0_pay2 (F := Ideal) (ix2 r c) = ((0 : ℝ) : EReal) := by
  show Ideal.ofBits .f32 0x00000000#32 = _
  exact ofBits_zero_coe

/-- The update adds, to the accumulator's entry `(r, c)`, the sum over every position `t` of the hinge term
    `max (x[r,c,t] - x[r,c,τ r c] + 1/2) 0`. -/
theorem pay3_apply (x0 : Vec Ideal S256x128x128 .f32) (x1 : Vec Ideal S256x128x1 .i32) (acc : Vec Ideal S256x128 .f32)
    (x0r : S256x128x128.Idx → ℝ) (hx0 : ∀ i, x0 i = ((x0r i : ℝ) : EReal))
    (τ0 : Fin 256 → Fin 128 → Fin 128) (hτ0 : ∀ r c, x1 (ix3 r c (0 : Fin 1)) = BitVec.ofNat 32 (τ0 r c).val)
    (accr : Fin 256 → Fin 128 → ℝ) (hacc : ∀ r c, acc (ix2 r c) = ((accr r c : ℝ) : EReal)) (r : Fin 256) (c : Fin 128) :
    k0_pay3 (F := Ideal) x0 x1 acc (ix2 r c)
      = ((accr r c + ∑ t : Fin 128, max (x0r (ix3 r c t) - x0r (ix3 r c (τ0 r c)) + 1 / 2) 0 : ℝ) : EReal) := by
  -- the one-hot product summed along the lanes is the score at the positive position
  have hsum : ∑ k : Fin 128, ((x0r (ix3 r c k) : ℝ) : EReal)
        * FloatOps.sitofp (F := Ideal) .f32
            ((IntOp.cmpi .eq (BitVec.ofNat 32 k.val) (BitVec.ofNat 32 (τ0 r c).val)).setWidth 32)
      = ((x0r (ix3 r c (τ0 r c)) : ℝ) : EReal) := by
    simp only [onehot_eq, ← EReal.coe_mul, ← Cert.Margin.coe_sum]
    rw [sum_mul_onehot (fun k => x0r (ix3 r c k)) (τ0 r c)]
  -- the lane iota at the row's one index: the position's word
  have hio : ∀ k : Fin 128, iota .tc S1x1x128 32 [2] iota_S1x1x128_d2_w32 (ix3 (0 : Fin 1) (0 : Fin 1) k)
      = BitVec.ofNat 32 k.val := fun k => iota_single_apply .tc _ 32 2 _ (ix3 (0 : Fin 1) (0 : Fin 1) k)
  unfold k0_pay3
  dsimp only
  -- the accumulator's entry plus the lane sum of the hinge terms
  rw [shapeCast_self, addf_apply, hacc]
  refine (congrArg (fun z => ((accr r c : ℝ) : EReal) + z) (laneSum_apply' _ _ _ _ r c)).trans ?_
  rw [EReal.coe_add, Cert.Margin.coe_sum]
  refine congrArg (fun z => ((accr r c : ℝ) : EReal) + z) (Finset.sum_congr rfl fun t _ => ?_)
  -- one hinge term: the score less the lane sum of the one-hot product, plus one half, against zero
  simp only [maximumf_apply, addf_apply, subf_apply, broadcast_apply, broadcastTo_ab1_abc_apply, shapeCast_ab_ab1_apply,
    hx0, Ideal.ofBits_def, ofBits_half_f32, ofBits_zero_coe]
  rw [coe_max, EReal.coe_add, EReal.coe_sub]
  refine congrArg (fun z => max (((x0r (ix3 r c t) : ℝ) : EReal) - z + ((1 / 2 : ℝ) : EReal)) ((0 : ℝ) : EReal)) ?_
  refine (laneSum_apply' _ _ _ _ r c).trans ?_
  simp only [mulf_apply, sitofp_apply, extui_apply, cmpi_apply, broadcastTo_11c_abc_apply, hio,
    broadcastTo_ab1_abc_apply, shapeCast_ab_ab1_apply, shapeCast_ab1_ab_apply, hτ0, hx0]
  exact hsum

/-- The output tile holds, at every entry, the total of the accumulator. -/
theorem pay41_apply (v : Vec Ideal S256x128 .f32) (vr : Fin 256 → Fin 128 → ℝ)
    (hv : ∀ r c, v (ix2 r c) = ((vr r c : ℝ) : EReal)) (i : S1x8x128.Idx) :
    k0_pay1 (F := Ideal) (k0_pay4 (F := Ideal) v) i = ((∑ r : Fin 256, ∑ c : Fin 128, vr r c : ℝ) : EReal) := by
  -- the total over the accumulator viewed with a leading unit axis, whatever the index it is read at
  have key : ∀ j : S1.Idx,
      multiReduction (F := Ideal) .add [1, 2] S1 (shapeCast S1x256x128 v shapeCasts_S256x128_S1x256x128) 0x00000000#32
          reduces_S1x256x128_S1 (.inl rfl) rfl j
        = ((∑ r : Fin 256, ∑ c : Fin 128, vr r c : ℝ) : EReal) := by
    intro j
    refine (Ideal.multiReduction_add_total _ _ _ (fun b => ?_) _ _ j).trans ?_
    · match b with
      | ⟨0, _⟩ => rfl
    · rw [sum_idx1ab]
      simp only [shapeCast_ab_1ab_apply, hv, ← Cert.Margin.coe_sum]
  unfold k0_pay1 k0_pay4
  rw [shapeCast_broadcast_apply]
  exact extractAt_shapeCast_of_const _ _ _ _ _ key

end Cert.KernelIdeal.Pay

end
-- ==== Proof.KernelValue.lean ====
/-
  The idealized kernel's result as a number. Grid point `t` (of sixteen) stages rows `256 t … 256 t + 255` of the
  scores and of the positions; the accumulator after point `t` holds, at `(r, c)`, the row sums of the blocks
  `8 ⌊t/8⌋ … t` at that entry; the output tile after point `t` holds the accumulator's total; the tile is written
  back after points 7 and 15, so row `i` of the result array holds half `i`'s total; the lines after the call add
  the two halves, take off `524288 · 1/2` and divide by `66584576`.
-/
import proofs.«414346_j74491912782376_3_alg».proof.Proof.Pieces
import proofs.«414346_j74491912782376_3_alg».proof.Proof.Payload
import proofs.«414346_j74491912782376_3_alg».proof.Proof.Spec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Margin

variable (m : (ℓ : Loc nD τ sig) → Buf (Elt Ideal) ℓ) (ρ : Dev nD → PrngReg)
variable (xr : SX.Idx → ℝ) (pos : Fin 4096 → Fin 128 → Fin 128)

/-! ## The staged blocks -/

/-- The printed index maps over the grid: the two inputs' block index is the point's number, the output's its half. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0 :=
  (by decide +kernel : ∀ t : Fin grid0.N, _)

theorem lt16 (t : Fin cfg0.N) : t.val < 16 := lt_of_lt_of_eq t.isLt (show cfg0.N = 16 from N_0)

/-- The scores' block and the positions' block at a point, at their literal types. -/
abbrev xblk (c : Dev nD) (t : Fin cfg0.N) : Vec Ideal S256x128x128 .f32 := iblk m c 0 t
abbrev tblk (c : Dev nD) (t : Fin cfg0.N) : Vec Ideal S256x128x1 .i32 := iblk m c 1 t

/-- The scores' block at point `t` is rows `256 t + r` of the scores. -/
theorem xblk_apply (hx : ∀ (c : Dev nD) i, m ((c : Thread nD τ).loc main_arg0) i = ((xr i : ℝ) : EReal))
    (c : Dev nD) (t : Fin cfg0.N) (r : Fin 256) (cc : Fin 128) (s : Fin 128) :
    xblk m c t (ix3 r cc s) = ((xr (ix3 (rowOf ⟨t.val, lt16 t⟩ r) cc s) : ℝ) : EReal) := by
  obtain ⟨e0, e1, e2, -⟩ := idx_facts t
  show iblk m c 0 t (ix3 r cc s) = _
  unfold iblk
  rw [View.read_apply]
  show V m c main_arg0 _ = _
  rw [V_main_arg0]
  refine (congrArg (m ((c : Thread nD τ).loc main_arg0)) ?_).trans (hx c _)
  funext a
  apply Fin.ext
  match a with
  | ⟨0, _⟩ => show win0_0.index t (0 : Fin 3) * 256 + 1 * r.val = 256 * t.val + r.val; rw [e0]; omega
  | ⟨1, _⟩ => show win0_0.index t (1 : Fin 3) * 128 + 1 * cc.val = cc.val; rw [e1]; omega
  | ⟨2, _⟩ => show win0_0.index t (2 : Fin 3) * 128 + 1 * s.val = s.val; rw [e2]; omega

/-- The positions as the call finds them: the host's added unit axis. -/
theorem V_main_v0 (c : Dev nD) : (V m c main_v0 : Vec Ideal S4096x128x1 .i32)
    = broadcastInDim S4096x128x1 ![0, 1] bcast_S4096x128_S4096x128x1_0_1 (m ((c : Thread nD τ).loc main_arg1)) := by
  show StableHlo.after hostOps0 (fun b => m (c, b)) (Proc.devRef .tc main_v0) = _
  after_results

/-- The positions' block at point `t` is rows `256 t + r` of the positions. -/
theorem tblk_apply (hpos : ∀ (c : Dev nD) v cc, m ((c : Thread nD τ).loc main_arg1) (ix2 v cc) = BitVec.ofNat 32 (pos v cc).val)
    (c : Dev nD) (t : Fin cfg0.N) (r : Fin 256) (cc : Fin 128) :
    tblk m c t (ix3 r cc (0 : Fin 1)) = BitVec.ofNat 32 (pos (rowOf ⟨t.val, lt16 t⟩ r) cc).val := by
  obtain ⟨-, -, -, e0, e1, e2, -⟩ := idx_facts t
  show iblk m c 1 t (ix3 r cc (0 : Fin 1)) = _
  unfold iblk
  rw [View.read_apply]
  show V m c main_v0 _ = _
  rw [V_main_v0]
  refine (broadcastInDim_apply _ _ _ _ (ix2 (rowOf ⟨t.val, lt16 t⟩ r) cc) ?_).trans (hpos c _ _)
  intro a
  match a with
  | ⟨0, _⟩ => show 256 * t.val + r.val = win0_1.index t (0 : Fin 3) * 256 + 1 * r.val; rw [e0]; omega
  | ⟨1, _⟩ => show cc.val = win0_1.index t (1 : Fin 3) * 128 + 1 * cc.val; rw [e1]; omega

/-! ## The accumulator and the output tile, point by point -/

/-- Block `b`'s row sum at accumulator entry `(r, c)` (zero past the sixteen blocks). -/
def rowSumN (b : ℕ) (r : Fin 256) (cc : Fin 128) : ℝ :=
  if h : b < 16 then rowSumR xr pos (rowOf ⟨b, h⟩ r) cc else 0

/-- The accumulator after point `n`: the row sums of the blocks of `n`'s half up to `n`. -/
def accR (n : ℕ) (r : Fin 256) (cc : Fin 128) : ℝ :=
  ∑ j ∈ Finset.range (n % 8 + 1), rowSumN xr pos (8 * (n / 8) + j) r cc

/-- One update: the accumulator's entry gains the block's row sum there. -/
theorem step_value (hx : ∀ (c : Dev nD) i, m ((c : Thread nD τ).loc main_arg0) i = ((xr i : ℝ) : EReal))
    (hpos : ∀ (c : Dev nD) v cc, m ((c : Thread nD τ).loc main_arg1) (ix2 v cc) = BitVec.ofNat 32 (pos v cc).val)
    (c : Dev nD) (t : Fin cfg0.N) (acc : Vec Ideal S256x128 .f32) (accr : Fin 256 → Fin 128 → ℝ)
    (hacc : ∀ r cc, acc (ix2 r cc) = ((accr r cc : ℝ) : EReal)) (r : Fin 256) (cc : Fin 128) :
    k0_pay3 (F := Ideal) (xblk m c t) (tblk m c t) acc (ix2 r cc) = ((accr r cc + rowSumN xr pos t.val r cc : ℝ) : EReal) := by
  refine (Pay.pay3_apply (xblk m c t) (tblk m c t) acc
    (fun i => xr (ix3 (rowOf ⟨t.val, lt16 t⟩ (i 0)) (i 1) (i 2))) (fun i => ?_)
    (fun r cc => pos (rowOf ⟨t.val, lt16 t⟩ r) cc) (fun r cc => tblk_apply m pos hpos c t r cc) accr hacc r cc).trans ?_
  · rw [eq_ix3 i]; exact xblk_apply m xr hx c t (i 0) (i 1) (i 2)
  · unfold rowSumN rowSumR hingeR
    rw [dif_pos (lt16 t)]

/-- A half's first point leaves the block's row sums alone. -/
theorem accR_of_mod (n : ℕ) (h0 : n % 8 = 0) (r : Fin 256) (cc : Fin 128) :
    accR xr pos n r cc = rowSumN xr pos n r cc := by
  unfold accR
  rw [h0]
  simp only [Nat.zero_add, Finset.sum_range_one, Nat.add_zero]
  congr 1
  omega

/-- Every other point adds its block's row sums. -/
theorem accR_succ (n : ℕ) (h0 : ¬(n + 1) % 8 = 0) (r : Fin 256) (cc : Fin 128) :
    accR xr pos (n + 1) r cc = accR xr pos n r cc + rowSumN xr pos (n + 1) r cc := by
  unfold accR
  have e1 : (n + 1) % 8 = n % 8 + 1 := by omega
  have e2 : (n + 1) / 8 = n / 8 := by omega
  rw [e1, e2, Finset.sum_range_succ]
  congr 2
  omega

/-- The accumulator after a half's first point. -/
theorem scr_A (hx : ∀ (c : Dev nD) i, m ((c : Thread nD τ).loc main_arg0) i = ((xr i : ℝ) : EReal))
    (hpos : ∀ (c : Dev nD) v cc, m ((c : Thread nD τ).loc main_arg1) (ix2 v cc) = BitVec.ofNat 32 (pos v cc).val)
    (c : Dev nD) (t : Fin cfg0.N) (h0 : t.val % 8 = 0) (r : Fin 256) (cc : Fin 128) :
    (outsAt0 m c t.val t.isLt).2 (ix2 r cc) = ((rowSumN xr pos t.val r cc : ℝ) : EReal) := by
  rw [outsAt0_A m c t h0]
  dsimp only
  refine (congrFun (sout_A (F := Ideal) c (grid0.coords t) (ms0_0 t) (hs0_0 t) (ms0_1 t) (hs0_1 t) (ms0_2 t) (hs0_2 t)
    scM0_0 (Memref.isWhole_whole _) ((hcond0_0 t).mpr h0) (iblk m c 0 t) (iblk m c 1 t)) (ix2 r cc)).trans ?_
  refine (step_value m xr pos hx hpos c t (k0_pay2 (F := Ideal)) (fun _ _ => 0) (fun r cc => Pay.pay2_apply r cc) r cc).trans ?_
  rw [zero_add]

/-- The accumulator after any other point, over what the point before left. -/
theorem scr_B (hx : ∀ (c : Dev nD) i, m ((c : Thread nD τ).loc main_arg0) i = ((xr i : ℝ) : EReal))
    (hpos : ∀ (c : Dev nD) v cc, m ((c : Thread nD τ).loc main_arg1) (ix2 v cc) = BitVec.ofNat 32 (pos v cc).val)
    (c : Dev nD) (t : Fin cfg0.N) (h0 : ¬t.val % 8 = 0) (accr : Fin 256 → Fin 128 → ℝ)
    (hprev : ∀ r cc, (outsAt0 m c (t.val - 1) (Nat.lt_of_le_of_lt (Nat.sub_le _ _) t.isLt)).2 (ix2 r cc) = ((accr r cc : ℝ) : EReal))
    (r : Fin 256) (cc : Fin 128) :
    (outsAt0 m c t.val t.isLt).2 (ix2 r cc) = ((accr r cc + rowSumN xr pos t.val r cc : ℝ) : EReal) := by
  rw [outsAt0_B m c t h0]
  dsimp only
  refine (congrFun (sout_B (F := Ideal) c (grid0.coords t) (ms0_0 t) (hs0_0 t) (ms0_1 t) (hs0_1 t) (ms0_2 t) (hs0_2 t)
    scM0_0 (Memref.isWhole_whole _) (fun h => h0 ((hcond0_0 t).mp h)) (iblk m c 0 t) (iblk m c 1 t)
    (outsAt0 m c (t.val - 1) (Nat.lt_of_le_of_lt (Nat.sub_le _ _) t.isLt)).2) (ix2 r cc)).trans ?_
  exact step_value m xr pos hx hpos c t _ accr hprev r cc

/-- THE ACCUMULATOR, point by point: after point `n` it holds the row sums of the blocks of `n`'s half up to `n`. -/
theorem scr_inv (hx : ∀ (c : Dev nD) i, m ((c : Thread nD τ).loc main_arg0) i = ((xr i : ℝ) : EReal))
    (hpos : ∀ (c : Dev nD) v cc, m ((c : Thread nD τ).loc main_arg1) (ix2 v cc) = BitVec.ofNat 32 (pos v cc).val)
    (c : Dev nD) : ∀ (n : ℕ) (hn : n < cfg0.N) (r : Fin 256) (cc : Fin 128),
    (outsAt0 m c n hn).2 (ix2 r cc) = ((accR xr pos n r cc : ℝ) : EReal)
  | 0, hn, r, cc => by
    rw [accR_of_mod xr pos 0 rfl]
    exact scr_A m xr pos hx hpos c ⟨0, hn⟩ rfl r cc
  | n + 1, hn, r, cc => by
    by_cases h0 : (n + 1) % 8 = 0
    · rw [accR_of_mod xr pos (n + 1) h0]
      exact scr_A m xr pos hx hpos c ⟨n + 1, hn⟩ h0 r cc
    · rw [accR_succ xr pos n h0]
      exact scr_B m xr pos hx hpos c ⟨n + 1, hn⟩ h0 (accR xr pos n)
        (fun r cc => scr_inv hx hpos c n (Nat.lt_of_succ_lt hn) r cc) r cc

/-- The output tile after a point is the total of the accumulator after that point, at every entry. -/
theorem out_eq (c : Dev nD) (t : Fin cfg0.N) :
    (outsAt0 m c t.val t.isLt).1 = k0_pay1 (F := Ideal) (k0_pay4 (F := Ideal) (outsAt0 m c t.val t.isLt).2) := by
  by_cases h0 : t.val % 8 = 0
  · rw [outsAt0_A m c t h0]
    dsimp only
    rw [out_A, sout_A]
  · rw [outsAt0_B m c t h0]
    dsimp only
    rw [out_B, sout_B]

theorem out_inv (hx : ∀ (c : Dev nD) i, m ((c : Thread nD τ).loc main_arg0) i = ((xr i : ℝ) : EReal))
    (hpos : ∀ (c : Dev nD) v cc, m ((c : Thread nD τ).loc main_arg1) (ix2 v cc) = BitVec.ofNat 32 (pos v cc).val)
    (c : Dev nD) (t : Fin cfg0.N) (i : S1x8x128.Idx) :
    (outsAt0 m c t.val t.isLt).1 i = ((∑ r : Fin 256, ∑ cc : Fin 128, accR xr pos t.val r cc : ℝ) : EReal) := by
  rw [out_eq m c t]
  exact Pay.pay41_apply _ (accR xr pos t.val) (fun r cc => scr_inv m xr pos hx hpos c t.val t.isLt r cc) i

/-! ## The result array after the call -/

/-- Half `i`'s total: the accumulator's total after the half's last point. -/
def halfN (i : ℕ) : ℝ := ∑ r : Fin 256, ∑ cc : Fin 128, accR xr pos (8 * i + 7) r cc

/-- The result array: row `i` holds half `i`'s total at every entry. -/
abbrev G2 : Vec Ideal S2x8x128 .f32 := fun idx => ((halfN xr pos (idx 0).val : ℝ) : EReal)

/-- What a write-back writes (after points 7 and 15) is its block of that array. -/
theorem flushed_eq (hx : ∀ (c : Dev nD) i, m ((c : Thread nD τ).loc main_arg0) i = ((xr i : ℝ) : EReal))
    (hpos : ∀ (c : Dev nD) v cc, m ((c : Thread nD τ).loc main_arg1) (ix2 v cc) = BitVec.ofNat 32 (pos v cc).val)
    (c : Dev nD) (t : Fin cfg0.N) (hf : (cfg0.win 2).flush t = true) :
    (dats m 0 c).flushed 2 t = ((cfg0.win 2).blk t).view.read (Elt Ideal) (G2 xr pos) := by
  have h7 : t.val % 8 = 7 := (flush0_2 t).mp hf
  obtain ⟨-, -, -, -, -, -, e0, e1, e2⟩ := idx_facts t
  show (cfg0.win 2).cut (grid0.coords t) ((dats m 0 c).after 2 t) = _
  rw [after0_2]
  funext y
  rw [View.read_apply]
  show (outsAt0 m c t.val t.isLt).1 y = G2 xr pos (((cfg0.win 2).blk t).view.emb y)
  rw [out_inv m xr pos hx hpos c t y]
  show _ = ((halfN xr pos ((((cfg0.win 2).blk t).view.emb y) 0).val : ℝ) : EReal)
  have hv : ((((cfg0.win 2).blk t).view.emb y) 0).val = t.val / 8 := by
    show win0_2.index t (0 : Fin 3) * 1 + 1 * (y 0).val = t.val / 8
    have hy : (y 0).val < 1 := (y 0).isLt
    rw [e0]; omega
  rw [hv]
  unfold halfN
  have e : 8 * (t.val / 8) + 7 = t.val := by omega
  rw [e]

/-- An index of the result array is in point `t`'s block iff each coordinate is in the block's range. -/
theorem mem_blk (t : Fin cfg0.N) (i : S2x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v1).slice (win0_2.rect t)).set ↔ _
  rw [View.set_slice_whole, Rect.mem_set_unit]
  exact Iff.rfl

/-- THE RESULT ARRAY after the call. -/
theorem final_o (hx : ∀ (c : Dev nD) i, m ((c : Thread nD τ).loc main_arg0) i = ((xr i : ℝ) : EReal))
    (hpos : ∀ (c : Dev nD) v cc, m ((c : Thread nD τ).loc main_arg1) (ix2 v cc) = BitVec.ofNat 32 (pos v cc).val)
    (c : Dev nD) : (dats m 0 c).arrAt 2 cfg0.N = G2 xr pos :=
  (dats m 0 c).arrAt_eq_of_cover 2 (G2 xr pos) (flushed_eq m xr pos hx hpos c) fun i => by
    have hN : cfg0.N = 16 := N_0
    have hi0 : (i 0).val < 2 := (i 0).isLt
    have hi1 : (i 1).val < 8 := (i 1).isLt
    have hi2 : (i 2).val < 128 := (i 2).isLt
    have hlt : 8 * (i 0).val + 7 < cfg0.N := by omega
    obtain ⟨-, -, -, -, -, -, e0, e1, e2⟩ := idx_facts ⟨8 * (i 0).val + 7, hlt⟩
    refine ⟨⟨8 * (i 0).val + 7, hlt⟩, (flush0_2 _).mpr (by show (8 * (i 0).val + 7) % 8 = 7; omega), ?_⟩
    rw [mem_blk]
    intro a
    match a with
    | ⟨0, _⟩ => show win0_2.index ⟨8 * (i 0).val + 7, hlt⟩ (0 : Fin 3) * 1 ≤ (i 0).val ∧ (i 0).val < win0_2.index ⟨8 * (i 0).val + 7, hlt⟩ (0 : Fin 3) * 1 + 1
                rw [e0]; dsimp only; omega
    | ⟨1, _⟩ => show win0_2.index ⟨8 * (i 0).val + 7, hlt⟩ (1 : Fin 3) * 8 ≤ (i 1).val ∧ (i 1).val < win0_2.index ⟨8 * (i 0).val + 7, hlt⟩ (1 : Fin 3) * 8 + 8
                rw [e1]; omega
    | ⟨2, _⟩ => show win0_2.index ⟨8 * (i 0).val + 7, hlt⟩ (2 : Fin 3) * 128 ≤ (i 2).val ∧ (i 2).val < win0_2.index ⟨8 * (i 0).val + 7, hlt⟩ (2 : Fin 3) * 128 + 128
                rw [e2]; omega

/-- A half's total is the specification's. -/
theorem halfN_eq (i : Fin 2) : halfN xr pos i.val = halfR xr pos i := by
  unfold halfN halfR accR
  have e1 : (8 * i.val + 7) % 8 = 7 := by omega
  have e2 : (8 * i.val + 7) / 8 = i.val := by omega
  refine Finset.sum_congr rfl fun r _ => Finset.sum_congr rfl fun cc _ => ?_
  rw [e1, e2]
  show ∑ j ∈ Finset.range 8, _ = _
  rw [Finset.sum_range]
  refine Finset.sum_congr rfl fun j _ => ?_
  unfold rowSumN
  rw [dif_pos (by have := i.isLt; have := j.isLt; omega)]

/-! ## The lines after the call, and the run -/

/-- The three constants of the lines after the call, as the reals their patterns denote. -/
theorem c_count : Ideal.ofBits .f32 0x49000000#32 = ((524288 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_terms : Ideal.ofBits .f32 0x4C7E0000#32 = ((66584576 : ℝ) : EReal) := by
  simp [Ideal.ofBits, Ideal.ieee, -EReal.coe_mul]; norm_num

/-- Entry `(i, 0, 0)` of the result array, sliced out and reshaped to a scalar, is half `i`'s total. -/
theorem slice_val (o : Fin 3 → Nat) (h : S2x8x128.Slices o S1x1x1) (h' : S1x1x1.ShapeCasts S_) (j : S_.Idx) (i : ℕ) (ho : o 0 = i) :
    shapeCast S_ (extractStridedSlice S1x1x1 o (G2 xr pos) h) h' j = ((halfN xr pos i : ℝ) : EReal) := by
  unfold shapeCast extractStridedSlice
  generalize (Shape.reshapeEquiv h') j = k
  show ((halfN xr pos (o 0 + (k 0).val) : ℝ) : EReal) = _
  have hk : (k 0).val < 1 := (k 0).isLt
  have hk0 : (k 0).val = 0 := by omega
  rw [hk0, ho, Nat.add_zero]

/-- The scalar the lines after the call leave: the two halves, less `524288 · 1/2`, over `66584576`. -/
theorem tail_value (hx : ∀ (c : Dev nD) i, m ((c : Thread nD τ).loc main_arg0) i = ((xr i : ℝ) : EReal))
    (hpos : ∀ (c : Dev nD) v cc, m ((c : Thread nD τ).loc main_arg1) (ix2 v cc) = BitVec.ofNat 32 (pos v cc).val)
    (c : Dev nD) :
    Pipeline.afterTail₀ cfgs (dats m) 0 (V0 m) [hostOps1] c main_v9 = (fun _ => ((kernR xr pos : ℝ) : EReal)) := by
  unfold Pipeline.afterTail₀
  show StableHlo.after hostOps1 _ (Proc.devRef .tc main_v9) = _
  after_results
  have hW : Pipeline.withArrays (cfgs 0).spec c (V0 m c) (fun w => (dats m 0 c).arrAt w (cfgs 0).N) (Proc.devRef .tc main_v1)
      = G2 xr pos :=
    (Pipeline.withArrays_arr spec0 launch0.win.arr_inj c _ _ 2).trans (final_o m xr pos hx hpos c)
  rw [hW]
  funext j
  show Ideal.div ((shapeCast S_ (extractStridedSlice S1x1x1 ![0, 0, 0] (G2 xr pos) slices_S2x8x128_S1x1x1_0_0_0) shapeCasts_S1x1x1_S_ j
      + shapeCast S_ (extractStridedSlice S1x1x1 ![1, 0, 0] (G2 xr pos) slices_S2x8x128_S1x1x1_1_0_0) shapeCasts_S1x1x1_S_ j)
      - Ideal.ofBits .f32 0x49000000#32 * Ideal.ofBits .f32 0x3F000000#32) (Ideal.ofBits .f32 0x4C7E0000#32) = _
  rw [slice_val xr pos _ _ _ j 0 rfl, slice_val xr pos _ _ _ j 1 rfl, c_count, c_half, c_terms,
    Ideal.div_coe (by norm_num : (66584576 : ℝ) ≠ 0), ← EReal.coe_add, ← EReal.coe_mul, ← EReal.coe_sub, ← EReal.coe_mul]
  have e0 : halfN xr pos 0 = halfR xr pos 0 := halfN_eq xr pos 0
  have e1 : halfN xr pos 1 = halfR xr pos 1 := halfN_eq xr pos 1
  rw [e0, e1]
  unfold kernR
  congr 1
  ring

/-- From a memory whose scores are the reals `xr` and whose positions are `pos`, every weakly fair execution of the
    idealized kernel ends with its result at the kernel's number, the arguments unchanged. -/
theorem run (hx : ∀ (c : Dev nD) i, m ((c : Thread nD τ).loc main_arg0) i = ((xr i : ℝ) : EReal))
    (hpos : ∀ (c : Dev nD) v cc, m ((c : Thread nD τ).loc main_arg1) (ix2 v cc) = BitVec.ofNat 32 (pos v cc).val) :
    θ_run defs (onTc (τ := τ) (main (F := Ideal))) ⟨m, fun _ => 0, ρ⟩ fun r => ∀ c : Dev nD,
      r.2.mem ((c.tc : Thread nD τ).loc main_v9) = (fun _ => ((kernR xr pos : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v9 (Pipeline.mem_restRefs_of main_v9 (by decide) (by decide))).trans (tail_value m xr pos hx hpos c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Acc

end
-- ==== Proof.RefSide.lean ====
/-
  The reference's run read index by index, for real scores and positions below 128: the positive score
  taken along the last axis is the score at the positive position (the index is in range, so the fill value
  is not selected); the hinge terms; the mask that leaves the positive position out; the total over every
  index and the quotient by the count.
-/
import proofs.«414346_j74491912782376_3_alg».proof.Proof.RefRun
import proofs.«414346_j74491912782376_3_alg».proof.Proof.RefRead
import proofs.«414346_j74491912782376_3_alg».proof.Proof.Spec
import Idealize.ShloMosaic.PureOps.Ideal.Laws
import Idealize.ShloMosaic.PureOps.Reduce
import Idealize.ShloMosaic.Lib.ValueIdx
import Idealize.ShloMosaic.Lib.Pipeline.Value
import Idealize.ShloMosaic.Lib.StableHlo.Predicate

noncomputable section

open scoped BigOperators

namespace Cert.ReferenceIdeal.RefValue

open Idealize.ShloMosaic Idealize.ShloMosaic.TcCoe Idealize.SL.Sem Idealize.ShloMosaic.ValueIdx Cert.ReferenceIdeal Cert.Margin

/-! ## Words: positions below 128 as 32-bit words -/

theorem small_lt (p : Fin 128) : (BitVec.ofNat 32 p.val).toNat < 2 ^ 31 := by
  rw [BitVec.toNat_ofNat]; have := p.isLt; omega

/-- A position's word is not negative … -/
theorem slt_zero (p : Fin 128) : IntOp.cmpi .slt (BitVec.ofNat 32 p.val) 0#32 = 0#1 := by
  apply eq_zero_of_ne_one
  rw [StableHlo.Predicate.slt_iff_toNat (small_lt p) (by decide)]
  simp

theorem sge_zero (p : Fin 128) : IntOp.cmpi .sge (BitVec.ofNat 32 p.val) 0#32 = 1#1 :=
  (StableHlo.Predicate.sge_iff_toNat (small_lt p) (by decide)).2 (by simp)

/-- … and at most 127 … -/
theorem sle_127 (p : Fin 128) : IntOp.cmpi .sle (BitVec.ofNat 32 p.val) 127#32 = 1#1 :=
  (StableHlo.Predicate.sle_iff_toNat (small_lt p) (by decide)).2 (by
    simp only [BitVec.toNat_ofNat]; have := p.isLt; omega)

/-- … so, read signed and clamped into [0, 127], it is the position. -/
theorem clamp_id (p : Fin 128) : min (BitVec.ofNat 32 p.val).toInt.toNat 127 = p.val := by
  rw [StableHlo.Predicate.toInt_ofNat_small _ (by have := p.isLt; omega)]
  have := p.isLt
  omega

/-- Two positions' words differ exactly when the positions do. -/
theorem ne_word (t p : Fin 128) :
    IntOp.cmpi .ne (BitVec.ofNat 32 t.val) (BitVec.ofNat 32 p.val) = if t = p then 0#1 else 1#1 := by
  by_cases h : t = p
  · rw [if_pos h, h]
    show BitVec.ofBool (BitVec.ofNat 32 p.val != BitVec.ofNat 32 p.val) = 0#1
    rw [bne_self_eq_false]; rfl
  · rw [if_neg h]
    have hne : BitVec.ofNat 32 t.val ≠ BitVec.ofNat 32 p.val := fun e => h (by
      have := congrArg BitVec.toNat e
      simp only [BitVec.toNat_ofNat] at this
      exact Fin.ext (by have := t.isLt; have := p.isLt; omega))
    show BitVec.ofBool (BitVec.ofNat 32 t.val != BitVec.ofNat 32 p.val) = 1#1
    rw [bne_iff_ne.2 hne]; rfl

/-! ## Constants, and the coercion through a maximum -/

theorem ofBits_half : Ideal.ofBits .f32 0x3F000000#32 = ((1 / 2 : ℝ) : EReal) := by
  simp [Ideal.ofBits, Ideal.ieee, -EReal.coe_mul]; norm_num

theorem ofBits_count : Ideal.ofBits .f32 0x4C7E0000#32 = ((66584576 : ℝ) : EReal) := by
  simp [Ideal.ofBits, Ideal.ieee, -EReal.coe_mul]; norm_num

theorem coe_max (a b : ℝ) : ((max a b : ℝ) : EReal) = max (a : EReal) (b : EReal) :=
  EReal.coe_strictMono.monotone.map_max

/-! ## A sum over a rank-3 index set is the triple sum over the coordinates -/

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## A reduction by `and` of an array of ones, from one, is one -/

private theorem foldl_keep {α β : Type} (a : α) : ∀ l : List β, l.foldl (fun r _ => r) a = a
  | [] => rfl
  | _ :: l => foldl_keep a l

theorem reduce_andi_one {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  have hf : (fun (r : BitVec 1) (i : s.Idx) => IntOp.andi r (x i)) = fun r _ => r := by
    funext r i
    rw [hx i]
    rcases BitVec.eq_zero_or_eq_one r with rfl | rfl <;> rfl
  rw [hf]
  exact foldl_keep _ _

/-! ## The gather along the last axis, read at an index

Operand `[4096, 128, 128]`, start indices `[4096, 128, 1, 1]`, result `[4096, 128, 1]`: the first two axes are batching
axes, the last is collapsed and indexed by the start index. Result element `(v, c, 0)` is the operand at
`(v, c, k)`, `k` the start index `idx[v, c, 0, 0]` read signed and clamped into `[0, 127]`. -/

abbrev gd (wf : GatherDims.WF S4096x128x128 S4096x128x1x1 S4096x128x1 [] [2] [0, 1] [2] [0, 1] 3 ![1, 1, 1]) :
    GatherDims S4096x128x128 S4096x128x1x1 S4096x128x1 where
  offsetDims := []
  collapsedSliceDims := [2]
  operandBatchingDims := [0, 1]
  startIndicesBatchingDims := [0, 1]
  startIndexMap := [2]
  indexVectorDim := 3
  sliceSizes := ![1, 1, 1]
  wf := wf

theorem m0 : (0 : Fin 3) ∈ ([0, 1] : List (Fin 3)) := by decide
theorem m1 : (1 : Fin 3) ∈ ([0, 1] : List (Fin 3)) := by decide
theorem m2 : (2 : Fin 3) ∉ ([0, 1] : List (Fin 3)) := by decide
theorem m22 : (2 : Fin 3) ∈ ([2] : List (Fin 3)) := by decide

theorem gather_apply (wf : GatherDims.WF S4096x128x128 S4096x128x1x1 S4096x128x1 [] [2] [0, 1] [2] [0, 1] 3 ![1, 1, 1])
    {α : Type} (x : S4096x128x128.Idx → α) (idx : IVec S4096x128x1x1 32) (v : Fin 4096) (cc : Fin 128) (z : Fin 1) :
    Host.gather (gd wf) x idx (ix3 v cc z)
      = x (ix3 v cc (⟨min (idx (ix4 v cc z 0)).toInt.toNat 127, by omega⟩ : Fin 128)) := by
  unfold Host.gather
  congr 1
  funext a
  refine Fin.ext ?_
  match a with
  | ⟨0, _⟩ =>
    show (gd wf).start (ix3 v cc z) idx 0 + (gd wf).batchCoord (ix3 v cc z) 0 + (gd wf).offCoord (ix3 v cc z) 0 = v.val
    rw [GatherDims.start_batching _ _ _ _ m0,
      GatherDims.offCoord_eq_zero _ _ _ (fun h => ((GatherDims.mem_sKept _ _).mp h).2 m0)]
    unfold GatherDims.batchCoord
    rw [dif_pos (show (0 : Fin 3) ∈ (gd wf).operandBatchingDims from m0)]
    simp only [Nat.zero_add, Nat.add_zero]
    rfl
  | ⟨1, _⟩ =>
    show (gd wf).start (ix3 v cc z) idx 1 + (gd wf).batchCoord (ix3 v cc z) 1 + (gd wf).offCoord (ix3 v cc z) 1 = cc.val
    rw [GatherDims.start_batching _ _ _ _ m1,
      GatherDims.offCoord_eq_zero _ _ _ (fun h => ((GatherDims.mem_sKept _ _).mp h).2 m1)]
    unfold GatherDims.batchCoord
    rw [dif_pos (show (1 : Fin 3) ∈ (gd wf).operandBatchingDims from m1)]
    simp only [Nat.zero_add, Nat.add_zero]
    rfl
  | ⟨2, _⟩ =>
    show (gd wf).start (ix3 v cc z) idx 2 + (gd wf).batchCoord (ix3 v cc z) 2 + (gd wf).offCoord (ix3 v cc z) 2
      = min (idx (ix4 v cc z 0)).toInt.toNat 127
    rw [GatherDims.batchCoord_eq_zero _ _ _ m2,
      GatherDims.offCoord_eq_zero _ _ _ (fun h => ((GatherDims.mem_sKept _ _).mp h).1 m22)]
    simp only [Nat.add_zero]
    unfold GatherDims.start
    rw [dif_pos (show (2 : Fin 3) ∈ (gd wf).startIndexMap from m22)]
    have hsi : (gd wf).siIdx (ix3 v cc z) ⟨List.idxOf (2 : Fin 3) (gd wf).startIndexMap,
        List.idxOf_lt_length_iff.2 m22⟩ = ix4 v cc z 0 := by
      funext b; refine Fin.ext ?_
      match b with
      | ⟨0, _⟩ => rfl
      | ⟨1, _⟩ => rfl
      | ⟨2, _⟩ => rfl
      | ⟨3, _⟩ => rfl
    rw [hsi]
    rfl

/-! ## The reference's stages at an index -/

section Stages

variable (x0 : (⟨S4096x128x128, .f32⟩ : BufTy).Contents (Elt Ideal)) (x1 : (⟨S4096x128, .i32⟩ : BufTy).Contents (Elt Ideal))
  (xr : SX.Idx → ℝ) (pos : Fin 4096 → Fin 128 → Fin 128)
  (hx0 : ∀ i, x0 i = ((xr i : ℝ) : EReal))
  (hx1 : ∀ v cc, x1 (ix2 v cc) = BitVec.ofNat 32 (pos v cc).val)

include hx1 in
/-- The positions with a trailing unit axis. -/
theorem v0_at (v : Fin 4096) (cc : Fin 128) (z : Fin 1) :
    ReadP.val_main_v0 (F := Ideal) x1 (ix3 v cc z) = BitVec.ofNat 32 (pos v cc).val := by
  rw [ReadP.val_main_v0_apply]
  have hi : ReadP.idx_main_v0 (ix3 v cc z) = ix2 v cc := by
    funext a; match a with | ⟨0, _⟩ => rfl | ⟨1, _⟩ => rfl
  rw [hi, hx1]

include hx1 in
/-- The index after the negative-index fix-up: a position is not negative, so it is kept. -/
theorem v4_at (v : Fin 4096) (cc : Fin 128) (z : Fin 1) :
    ReadP.val_main_call0_v4 (F := Ideal) x1 (ix3 v cc z) = BitVec.ofNat 32 (pos v cc).val := by
  rw [ReadP.val_main_call0_v4_apply, ReadP.val_main_call0_v1_apply, ReadP.val_main_call0_v0_apply,
    ReadP.val_main_call0_c_apply, v0_at x1 pos hx1, slt_zero, select_zero]

include hx1 in
/-- The start indices of the gather. -/
theorem v5_at (v : Fin 4096) (cc : Fin 128) (z1 z2 : Fin 1) :
    ReadP.val_main_call0_v5 (F := Ideal) x1 (ix4 v cc z1 z2) = BitVec.ofNat 32 (pos v cc).val := by
  rw [ReadP.val_main_call0_v5_apply]
  have hi : ReadP.idx_main_call0_v5 (ix4 v cc z1 z2) = ix3 v cc 0 := by
    funext a
    match a with
    | ⟨0, _⟩ =>
      refine Fin.ext ?_
      show (((v.val * 128 + cc.val) * 1 + z1.val) * 1 + z2.val) / 128 = v.val
      have := cc.isLt; have := z1.isLt; have := z2.isLt; omega
    | ⟨1, _⟩ =>
      refine Fin.ext ?_
      show (((v.val * 128 + cc.val) * 1 + z1.val) * 1 + z2.val) / 1 % 128 = cc.val
      have := cc.isLt; have := z1.isLt; have := z2.isLt; omega
    | ⟨2, _⟩ => rfl
  rw [hi, v4_at x1 pos hx1]

include hx1 in
/-- The in-range test of the start indices holds at every index by coordinates … -/
theorem v11_ix (v : Fin 4096) (cc : Fin 128) (z1 z2 : Fin 1) :
    ReadP.val_main_call0_v11 (F := Ideal) x1 (ix4 v cc z1 z2) = 1#1 := by
  rw [ReadP.val_main_call0_v11_apply, ReadP.val_main_call0_v7_apply, ReadP.val_main_call0_v10_apply,
    v5_at x1 pos hx1, ReadP.val_main_call0_v6_apply, ReadP.val_main_call0_c_2_apply, ReadP.val_main_call0_v9_apply,
    ReadP.val_main_call0_v8_apply, ReadP.val_main_call0_c_1_apply, sge_zero, sle_127]
  rfl

include hx1 in
/-- … that is, everywhere … -/
theorem v11_at (i : S4096x128x1x1.Idx) : ReadP.val_main_call0_v11 (F := Ideal) x1 i = 1#1 := by
  have e : (ix4 (i 0) (i 1) (i 2) (i 3) : S4096x128x1x1.Idx) = i := by
    funext a; match a with | ⟨0, _⟩ => rfl | ⟨1, _⟩ => rfl | ⟨2, _⟩ => rfl | ⟨3, _⟩ => rfl
  have h := v11_ix x1 pos hx1 (i 0) (i 1) (i 2) (i 3)
  rw [e] at h
  exact h

include hx1 in
/-- … so its reduction over the unit axis is one. -/
theorem v12_at (j : S4096x128x1.Idx) : ReadP.val_main_call0_v12 (F := Ideal) x1 j = 1#1 := by
  unfold ReadP.val_main_call0_v12
  exact reduce_andi_one _ _ _ _ (v11_at x1 pos hx1) (fun _ => rfl) j

include hx1 in
/-- The gather reads the score at the positive position. -/
theorem v13_at (v : Fin 4096) (cc : Fin 128) (z : Fin 1) :
    ReadP.val_main_call0_v13 (F := Ideal) x0 x1 (ix3 v cc z) = x0 (ix3 v cc (pos v cc)) := by
  unfold ReadP.val_main_call0_v13
  refine (gather_apply _ x0 _ v cc z).trans (congrArg (fun k => x0 (ix3 v cc k)) (Fin.ext ?_))
  show min (ReadP.val_main_call0_v5 (F := Ideal) x1 (ix4 v cc z 0)).toInt.toNat 127 = (pos v cc).val
  rw [v5_at x1 pos hx1, clamp_id]

include hx0 hx1 in
/-- The positive score of a row. -/
theorem v1_at (v : Fin 4096) (cc : Fin 128) (z : Fin 1) :
    ReadP.val_main_v1 (F := Ideal) x0 x1 (ix3 v cc z) = ((xr (ix3 v cc (pos v cc)) : ℝ) : EReal) := by
  rw [ReadP.val_main_v1_apply, v12_at x1 pos hx1, select_one, v13_at x0 x1 pos hx1, hx0]

include hx0 hx1 in
/-- The hinge term. -/
theorem v7_at (v : Fin 4096) (cc : Fin 128) (t : Fin 128) :
    ReadP.val_main_v7 (F := Ideal) x0 x1 (ix3 v cc t) = ((hingeR xr pos v cc t : ℝ) : EReal) := by
  rw [ReadP.val_main_v7_apply, ReadP.val_main_v5_apply, ReadP.val_main_v3_apply, ReadP.val_main_v2_apply,
    ReadP.val_main_v4_apply, ReadP.val_main_cst_apply, ReadP.val_main_v6_apply, ReadP.val_main_cst_0_apply]
  have hi : ReadP.idx_main_v2 (ix3 v cc t) = ix3 v cc 0 := by
    funext a; match a with | ⟨0, _⟩ => rfl | ⟨1, _⟩ => rfl | ⟨2, _⟩ => rfl
  rw [hi, v1_at x0 x1 xr pos hx0 hx1, hx0]
  simp only [Ideal.maximumf_def, Ideal.addf_def, Ideal.subf_def, Ideal.ofBits_def]
  rw [ofBits_half, Ideal.ofBits_zero_f32]
  unfold hingeR
  rw [coe_max, EReal.coe_add, EReal.coe_sub, EReal.coe_zero]

include hx1 in
/-- The mask that leaves the positive position out. -/
theorem v13m_at (v : Fin 4096) (cc : Fin 128) (t : Fin 128) :
    ReadP.val_main_v13 (F := Ideal) x1 (ix3 v cc t) = if t = pos v cc then 0#1 else 1#1 := by
  rw [ReadP.val_main_v13_apply, ReadP.val_main_v11_apply, ReadP.val_main_v9_apply, ReadP.val_main_v8_apply,
    ReadP.val_main_v12_apply, ReadP.val_main_v10_apply]
  have hi : ReadP.idx_main_v10 (ReadP.idx_main_v12 (ix3 v cc t)) = ix2 v cc := by
    funext a; match a with | ⟨0, _⟩ => rfl | ⟨1, _⟩ => rfl
  rw [hi, hx1]
  exact ne_word t (pos v cc)

include hx0 hx1 in
/-- The masked hinge term. -/
theorem v14_at (v : Fin 4096) (cc : Fin 128) (t : Fin 128) :
    ReadP.val_main_v14 (F := Ideal) x0 x1 (ix3 v cc t)
      = (((if t = pos v cc then 0 else hingeR xr pos v cc t) : ℝ) : EReal) := by
  rw [ReadP.val_main_v14_apply, v13m_at x1 pos hx1, v7_at x0 x1 xr pos hx0 hx1, ReadP.val_main_call1_v1_apply,
    ReadP.val_main_call1_v0_apply, ReadP.val_main_cst_1_apply]
  by_cases h : t = pos v cc
  · rw [if_pos h, if_pos h, select_zero]
    simp only [Ideal.ofBits_def]
    rw [Ideal.ofBits_zero_f32, EReal.coe_zero]
  · rw [if_neg h, if_neg h, select_one]

include hx0 hx1 in
/-- The total over every index. -/
theorem v15_at (i : S_.Idx) :
    ReadP.val_main_v15 (F := Ideal) x0 x1 i
      = ((∑ v : Fin 4096, ∑ cc : Fin 128, ∑ t : Fin 128, (if t = pos v cc then 0 else hingeR xr pos v cc t) : ℝ) : EReal) := by
  rw [ReadP.val_main_v15_apply, ReadP.val_main_cst_2_apply]
  simp only [Ideal.ofBits_def]
  rw [Ideal.ofBits_zero_f32, zero_add, sum_idx3]
  simp only [v14_at x0 x1 xr pos hx0 hx1, coe_sum]

include hx0 hx1 in
/-- The reference's result is the loss. -/
theorem v16_eq : ReadP.val_main_v16 (F := Ideal) x0 x1 = fun _ => ((lossR xr pos : ℝ) : EReal) := by
  funext i
  rw [ReadP.val_main_v16_apply, v15_at x0 x1 xr pos hx0 hx1, ReadP.val_main_cst_3_apply]
  simp only [Ideal.hostDivf_def, Ideal.ofBits_def]
  rw [ofBits_count, Ideal.div_coe (by norm_num), ← EReal.coe_mul, ← div_eq_mul_one_div]
  rfl

end Stages

/-- From a memory whose scores are the reals `xr` and whose positions are `τ`, every weakly fair execution of the
    reference ends with its result at the loss, the arguments unchanged. -/
theorem run (m : (ℓ : Loc nD τ sig) → Buf (Elt Ideal) ℓ) (ρ : Dev nD → PrngReg)
    (xr : SX.Idx → ℝ) (pos : Fin 4096 → Fin 128 → Fin 128)
    (hx : ∀ (c : Dev nD) i, m ((c.tc : Thread nD τ).loc main_arg0) i = ((xr i : ℝ) : EReal))
    (hpos : ∀ (c : Dev nD) v cc, m ((c.tc : Thread nD τ).loc main_arg1) (ix2 v cc) = BitVec.ofNat 32 (pos v cc).val) :
    θ_run defs (onTc (τ := τ) (main (F := Ideal))) ⟨m, fun _ => 0, ρ⟩ fun r => ∀ c : Dev nD,
      r.2.mem ((c.tc : Thread nD τ).loc main_v16) = (fun _ => ((lossR xr pos : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans
      ((ReadP.val_main_v16_eq _ _).trans (v16_eq _ _ xr pos (hx c) (hpos c))), (h c).2⟩)
    (Cert.ReferenceIdeal.ValueP.run (F := Ideal) m ρ)

end Cert.ReferenceIdeal.RefValue

end
-- ==== Proof.PreDecode.lean ====
/-
  What the precondition says of the inputs: every score is a real number (its absolute value is below
  +∞), and every position word is a number below 128 (not negative, less than 128, as signed words).
-/
import proofs.«414346_j74491912782376_3_alg».proof.Pre_finite_inputs
import proofs.«414346_j74491912782376_3_alg».proof.Proof.Gen.Pre_finite_inputs
import proofs.«414346_j74491912782376_3_alg».proof.Proof.Spec
import Idealize.ShloMosaic.Lib.ReduceAll
import Idealize.ShloMosaic.Lib.StableHlo.Predicate

noncomputable section

namespace Cert.Margin

open Idealize.ShloMosaic Idealize.ShloMosaic.ValueIdx

/-- An extended real whose absolute value, the greater of a and -a, is below +∞ is a real number: it is neither +∞
    (then a itself would not be below +∞) nor -∞ (then -a would be +∞). -/
theorem exists_real_of_abs_lt_top (a : EReal) (h : max a (-a) < ⊤) : ∃ r : ℝ, a = (r : EReal) := by
  obtain ⟨h1, h2⟩ := max_lt_iff.1 h
  have ht : a ≠ ⊤ := ne_of_lt h1
  have hb : a ≠ ⊥ := by
    rintro rfl
    rw [EReal.neg_bot] at h2
    exact lt_irrefl _ h2
  exact ⟨a.toReal, (EReal.coe_toReal ht hb).symm⟩

/-- The ordered comparison "less than" of two extended reals gives the word 1 only when the first is below the second. -/
theorem lt_of_cmp_olt {u v : EReal} (h : Ideal.cmp .olt u v = 1#1) : u < v := by
  have h' : BitVec.ofBool (decide (u < v)) = 1#1 := h
  exact of_decide_eq_true ((StableHlo.Predicate.ofBool_eq_one_iff _).1 h')

/-- The pattern 0x7F800000 of a 32-bit float is +∞. -/
theorem ofBits_inf : Ideal.ofBits .f32 0x7F800000#32 = ⊤ := by simp [Ideal.ofBits, Ideal.ieee]

/-- A 32-bit word that, read signed, is at least 0 and less than 128 has a value below 128. -/
theorem toNat_lt_of_range (w : BitVec 32) (h1 : IntOp.cmpi .sge w 0#32 = 1#1) (h2 : IntOp.cmpi .slt w 128#32 = 1#1) :
    w.toNat < 128 := by
  rw [IntOp.cmpi_sge, show (0#32 : BitVec 32).toInt = 0 from by decide] at h1
  rw [IntOp.cmpi_slt, show (128#32 : BitVec 32).toInt = 128 from by decide] at h2
  have h3 := BitVec.toInt_eq_toNat_cond w
  have h4 := w.isLt
  split at h3 <;> omega

/-- Under the precondition the scores are reals and the positions are numbers below 128. -/
theorem decode_pre [Cert.Pre_finite_inputs.Facts] (x : FVec Ideal SX .f32) (tg : IVec ST 32)
    (h : Cert.Pre_finite_inputs.fn (F := Ideal) x tg = fun _ => 1#1) :
    ∃ (xr : SX.Idx → ℝ) (τ : Fin 4096 → Fin 128 → Fin 128),
      (∀ i, x i = ((xr i : ℝ) : EReal)) ∧ ∀ v c, tg (ix2 v c) = BitVec.ofNat 32 (τ v c).val := by
  -- the shape with no axes has one index
  haveI : Subsingleton Cert.Pre_finite_inputs.S_.Idx := ⟨fun a b => funext fun d => d.elim0⟩
  -- the predicate's one word is the conjunction of the two "all" words: both are 1
  have h0 := congrFun h ValueIdx.ix0
  dsimp only [Cert.Pre_finite_inputs.fn] at h0
  obtain ⟨hX, hT⟩ := IntOp.andi_eq_one.1 h0
  -- every score has its absolute value below +∞, so it is a real
  have hx : ∀ i, ∃ r : ℝ, x i = (r : EReal) := fun i => by
    have e := Host.reduce_andi_all _ _ _ _ _ hX i
    have e' : Ideal.cmp .olt (max (x i) (-(x i))) (Ideal.ofBits .f32 0x7F800000#32) = 1#1 := e
    rw [ofBits_inf] at e'
    exact exists_real_of_abs_lt_top (x i) (lt_of_cmp_olt e')
  -- every position word is at least 0 and less than 128 as a signed word, so its value is below 128
  have ht : ∀ (v : Fin 4096) (c : Fin 128), (tg (ix2 v c)).toNat < 128 := fun v c => by
    have e := Host.reduce_andi_all _ _ _ _ _ hT (ix2 v c)
    have e' : IntOp.andi (IntOp.cmpi .sge (tg (ix2 v c)) 0#32) (IntOp.cmpi .slt (tg (ix2 v c)) 128#32) = 1#1 := e
    obtain ⟨e1, e2⟩ := IntOp.andi_eq_one.1 e'
    exact toNat_lt_of_range _ e1 e2
  choose xr hxr using hx
  refine ⟨xr, fun v c => ⟨(tg (ix2 v c)).toNat, ht v c⟩, hxr, fun v c => ?_⟩
  -- a word is the word of its own value
  apply BitVec.eq_of_toNat_eq
  rw [BitVec.toNat_ofNat, Nat.mod_eq_of_lt (tg (ix2 v c)).isLt]

end Cert.Margin

end
-- ==== Proof.Algebra.lean ====
/-
  The kernel's arrangement of the margin ranking loss is the loss: a row's hinge term at its own positive
  position is exactly the margin `1/2`, so the row's sum over every position is its sum over the other
  positions plus `1/2`; the rows `256 · (8 i + j) + r` over two halves, eight blocks and 256 rows are every
  row once; and `4096 · 128` halves are what the kernel takes off.
-/
import proofs.«414346_j74491912782376_3_alg».proof.Proof.Spec

noncomputable section

open scoped BigOperators

namespace Cert.Margin

open Idealize.ShloMosaic Idealize.ShloMosaic.ValueIdx

/-- A row's hinge term at its own positive position is the margin: `max (x - x + 1/2) 0 = 1/2`. -/
theorem hingeR_self (xr : SX.Idx → ℝ) (τ : Fin 4096 → Fin 128 → Fin 128) (v : Fin 4096) (c : Fin 128) :
    hingeR xr τ v c (τ v c) = 1 / 2 := by
  unfold hingeR
  rw [sub_self, zero_add]
  exact max_eq_left (by norm_num)

/-- A row's sum over every position is its sum over the positions other than the positive one, plus the
margin (the positive position's own term). -/
theorem rowSumR_eq (xr : SX.Idx → ℝ) (τ : Fin 4096 → Fin 128 → Fin 128) (v : Fin 4096) (c : Fin 128) :
    rowSumR xr τ v c = (∑ t : Fin 128, if t = τ v c then 0 else hingeR xr τ v c t) + 1 / 2 := by
  unfold rowSumR
  have hsplit : ∀ t : Fin 128, hingeR xr τ v c t
      = (if t = τ v c then 0 else hingeR xr τ v c t) + (if t = τ v c then (1 / 2 : ℝ) else 0) := by
    intro t
    by_cases h : t = τ v c
    · rw [if_pos h, if_pos h, zero_add, h, hingeR_self]
    · rw [if_neg h, if_neg h, add_zero]
  rw [Finset.sum_congr rfl (fun t _ => hsplit t), Finset.sum_add_distrib, Finset.sum_ite_eq',
    if_pos (Finset.mem_univ _)]

/-- The 4096 rows are the sixteen blocks' 256 rows each, every row once: `v = 256 b + r`. -/
theorem sum_rows (g : Fin 4096 → ℝ) :
    ∑ v : Fin 4096, g v = ∑ b : Fin 16, ∑ r : Fin 256, g (rowOf b r) := by
  have hre : ∑ v : Fin 4096, g v = ∑ p : Fin 16 × Fin 256, g (rowOf p.1 p.2) := by
    refine (Fintype.sum_equiv (finProdFinEquiv : Fin 16 × Fin 256 ≃ Fin (16 * 256)) _ _ ?_).symm
    intro p
    have hp : rowOf p.1 p.2 = finProdFinEquiv p := by
      apply Fin.ext
      show 256 * p.1.val + p.2.val = p.2.val + 256 * p.1.val
      omega
    exact congrArg g hp
  rw [hre]
  exact Fintype.sum_prod_type' (fun b r => g (rowOf b r))

/-- The sixteen blocks are the two halves' eight blocks each, every block once: `b = 8 i + j`. -/
theorem sum_blks (h : Fin 16 → ℝ) :
    ∑ b : Fin 16, h b = ∑ i : Fin 2, ∑ j : Fin 8, h (blkOf i j) := by
  have hre : ∑ b : Fin 16, h b = ∑ p : Fin 2 × Fin 8, h (blkOf p.1 p.2) := by
    refine (Fintype.sum_equiv (finProdFinEquiv : Fin 2 × Fin 8 ≃ Fin (2 * 8)) _ _ ?_).symm
    intro p
    have hp : blkOf p.1 p.2 = finProdFinEquiv p := by
      apply Fin.ext
      show 8 * p.1.val + p.2.val = p.2.val + 8 * p.1.val
      omega
    exact congrArg h hp
  rw [hre]
  exact Fintype.sum_prod_type' (fun i j => h (blkOf i j))

/-- One half's total, the sums reordered: blocks outermost, then rows, then columns. -/
theorem halfR_eq (xr : SX.Idx → ℝ) (τ : Fin 4096 → Fin 128 → Fin 128) (i : Fin 2) :
    halfR xr τ i = ∑ j : Fin 8, ∑ r : Fin 256, ∑ c : Fin 128, rowSumR xr τ (rowOf (blkOf i j) r) c := by
  unfold halfR
  calc ∑ r : Fin 256, ∑ c : Fin 128, ∑ j : Fin 8, rowSumR xr τ (rowOf (blkOf i j) r) c
      = ∑ r : Fin 256, ∑ j : Fin 8, ∑ c : Fin 128, rowSumR xr τ (rowOf (blkOf i j) r) c :=
        Finset.sum_congr rfl (fun r _ => Finset.sum_comm)
    _ = ∑ j : Fin 8, ∑ r : Fin 256, ∑ c : Fin 128, rowSumR xr τ (rowOf (blkOf i j) r) c :=
        Finset.sum_comm

/-- The two halves together are every row's sum, each row once. -/
theorem halves_eq (xr : SX.Idx → ℝ) (τ : Fin 4096 → Fin 128 → Fin 128) :
    halfR xr τ 0 + halfR xr τ 1 = ∑ v : Fin 4096, ∑ c : Fin 128, rowSumR xr τ v c := by
  rw [sum_rows (fun v => ∑ c : Fin 128, rowSumR xr τ v c),
    sum_blks (fun b => ∑ r : Fin 256, ∑ c : Fin 128, rowSumR xr τ (rowOf b r) c),
    Fin.sum_univ_two, halfR_eq, halfR_eq]

/-- Every row's sum over all positions, summed, is the sum away from the positive positions plus one margin
per row: `4096 · 128` halves. -/
theorem sum_rowSumR (xr : SX.Idx → ℝ) (τ : Fin 4096 → Fin 128 → Fin 128) :
    ∑ v : Fin 4096, ∑ c : Fin 128, rowSumR xr τ v c
      = (∑ v : Fin 4096, ∑ c : Fin 128, ∑ t : Fin 128, if t = τ v c then 0 else hingeR xr τ v c t)
        + 524288 * (1 / 2) := by
  have h1 : ∀ v : Fin 4096, ∑ c : Fin 128, rowSumR xr τ v c
      = (∑ c : Fin 128, ∑ t : Fin 128, if t = τ v c then 0 else hingeR xr τ v c t) + 128 * (1 / 2) := by
    intro v
    rw [Finset.sum_congr rfl (fun c _ => rowSumR_eq xr τ v c), Finset.sum_add_distrib, Finset.sum_const,
      Finset.card_univ, Fintype.card_fin, nsmul_eq_mul]
    norm_num
  rw [Finset.sum_congr rfl (fun v _ => h1 v), Finset.sum_add_distrib, Finset.sum_const,
    Finset.card_univ, Fintype.card_fin, nsmul_eq_mul]
  norm_num

/-- The kernel's number is the loss. -/
theorem kernR_eq_lossR (xr : SX.Idx → ℝ) (τ : Fin 4096 → Fin 128 → Fin 128) : kernR xr τ = lossR xr τ := by
  unfold kernR lossR
  rw [halves_eq, sum_rowSumR, add_sub_cancel_right]

end Cert.Margin

end
-- ==== Proof.lean ====
/-
  The certificate of the margin ranking loss kernel against its jnp reference, over the extended reals, for finite
  scores and positions in range `0 ≤ target < 128`.

  The kernel never masks the positive position: a row's hinge term there is `max (x - x + 1/2) 0 = 1/2` exactly (the
  scores are finite), so it sums the hinge terms over ALL positions — per row block into an accumulator that a half's
  first grid point resets, eight blocks a half, the accumulator's total written to the half's output tile — and the
  lines after the call add the two halves and take `4096 · 128 · 1/2` off before dividing by the count. The
  reference gathers the positive score, masks its position out and sums. Both are the same real number
  (`kernR_eq_lossR`): the sums are re-arranged, each row's positive term is the margin, and `524288` margins come off.
  The positive score is read by the kernel as a one-hot product summed along the last axis, by the reference as a
  gather whose index is in range, so its fill value is never selected.
-/
import proofs.«414346_j74491912782376_3_alg».proof.Defs
import proofs.«414346_j74491912782376_3_alg».proof.Proof.Gen.Kernel.Frame
import proofs.«414346_j74491912782376_3_alg».proof.Proof.Gen.KernelIdeal.Frame
import proofs.«414346_j74491912782376_3_alg».proof.Proof.Gen.ReferenceIdeal
import proofs.«414346_j74491912782376_3_alg».proof.Proof.Gen.Pre_finite_inputs
import proofs.«414346_j74491912782376_3_alg».proof.Proof.KernelValue
import proofs.«414346_j74491912782376_3_alg».proof.Proof.RefSide
import proofs.«414346_j74491912782376_3_alg».proof.Proof.PreDecode
import proofs.«414346_j74491912782376_3_alg».proof.Proof.Algebra

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Under the precondition the scores are reals and the positions are below 128; the kernel's run ends at the
    kernel's number, the reference's at the loss, and the two numbers are equal. -/
theorem algebraic : Cert.algebraic_KernelIdeal_ReferenceIdeal := by
  intro m ρ m' ρ' hpre hagree
  obtain ⟨xr, pos, hx, hpos⟩ := Cert.Margin.decode_pre _ _ (hpre 0)
  have hx1 : ∀ (c : Dev Cert.KernelIdeal.nD) i,
      m ((c : Thread Cert.KernelIdeal.nD Cert.KernelIdeal.τ).loc Cert.KernelIdeal.main_arg0) i = ((xr i : ℝ) : EReal) := fun c i => by
    obtain rfl : c = 0 := Subsingleton.elim _ _
    exact hx i
  have hp1 : ∀ (c : Dev Cert.KernelIdeal.nD) v cc,
      m ((c : Thread Cert.KernelIdeal.nD Cert.KernelIdeal.τ).loc Cert.KernelIdeal.main_arg1) (ix2 v cc) = BitVec.ofNat 32 (pos v cc).val := fun c v cc => by
    obtain rfl : c = 0 := Subsingleton.elim _ _
    exact hpos v cc
  refine ⟨fun _ _ => ((Cert.Margin.kernR xr pos : ℝ) : EReal), Cert.KernelIdeal.Acc.run m ρ xr pos hx1 hp1, ?_⟩
  have hx2 : ∀ (c : Dev Cert.ReferenceIdeal.nD) i,
      m' ((c.tc : Thread Cert.ReferenceIdeal.nD Cert.ReferenceIdeal.τ).loc Cert.ReferenceIdeal.main_arg0) i = ((xr i : ℝ) : EReal) := fun c i => by
    rw [(hagree c).1]; exact hx1 c i
  have hp2 : ∀ (c : Dev Cert.ReferenceIdeal.nD) v cc,
      m' ((c.tc : Thread Cert.ReferenceIdeal.nD Cert.ReferenceIdeal.τ).loc Cert.ReferenceIdeal.main_arg1) (ix2 v cc) = BitVec.ofNat 32 (pos v cc).val := fun c v cc => by
    rw [(hagree c).2]; exact hp1 c v cc
  refine (θ_run Cert.ReferenceIdeal.defs _ _).mono (fun _ h c => ⟨(h c).1.trans ?_, (h c).2⟩)
    (Cert.ReferenceIdeal.RefValue.run m' ρ' xr pos hx2 hp2)
  show (fun _ => ((Cert.Margin.lossR xr pos : ℝ) : EReal)) = fun _ => ((Cert.Margin.kernR xr pos : ℝ) : EReal)
  rw [Cert.Margin.kernR_eq_lossR]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
